-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : FVec F S4096x4096 .f32) (main_arg2 : FVec F S4096 .f32) (main_arg3 : FVec F S4096 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S4096x128 : Shape := ⟨2, ![4096, 128]⟩
abbrev S128x128 : Shape := ⟨2, ![128, 128]⟩
abbrev S1x128 : Shape := ⟨2, ![1, 128]⟩
abbrev S128 : Shape := ⟨1, ![128]⟩

abbrev nBuf : Space → Nat
  | .hbm => 11
  | .vmem => 26
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S4096x4096, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S4096x128, .f32⟩
  | .local _ .vmem, ⟨25, _⟩ => ⟨S4096x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  ![arg0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  ![arg0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4096_S1x4096 : S4096.ShapeCasts S1x4096
  iota_S128x128_d0_w32 : S128x128.Iotas .tc 32 [0]
  natLt_1_32 : 1 < 32
  iota_S128x128_d1_w32 : S128x128.Iotas .tc 32 [1]
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S128 : S4096x128.Reduces [0] S128
  shapeCasts_S128_S1x128 : S128.ShapeCasts S1x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x4096.size a
  hwx0_0 : ∀ i : grid0.Coords, EltTy.bits .f32 = 32 ∨ (Rect.block (s := S4096x4096) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x4096.size a
  hwx0_1 : ∀ i : grid0.Coords, EltTy.bits .f32 = 32 ∨ (Rect.block (s := S4096x4096) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x4096.size a
  hwx0_3 : ∀ i : grid0.Coords, EltTy.bits .f32 = 32 ∨ (Rect.block (s := S1x4096) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x4096.size a
  hwx0_4 : ∀ i : grid0.Coords, EltTy.bits .f32 = 32 ∨ (Rect.block (s := S1x4096) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x4096.size a
  hwx0_6 : ∀ i : grid0.Coords, EltTy.bits .f32 = 32 ∨ (Rect.block (s := S1x4096) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x4096.size a
  hwx1_0 : ∀ i : grid1.Coords, EltTy.bits .f32 = 32 ∨ (Rect.block (s := S4096x4096) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S4096x4096.size a
  hwx1_1 : ∀ i : grid1.Coords, EltTy.bits .f32 = 32 ∨ (Rect.block (s := S4096x4096) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x4096.size a
  hwx1_2 : ∀ i : grid1.Coords, EltTy.bits .f32 = 32 ∨ (Rect.block (s := S1x4096) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x4096.size a
  hwx1_3 : ∀ i : grid1.Coords, EltTy.bits .f32 = 32 ∨ (Rect.block (s := S1x4096) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x4096.size a
  hwx1_4 : ∀ i : grid1.Coords, EltTy.bits .f32 = 32 ∨ (Rect.block (s := S1x4096) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S4096x4096.size a
  hwx1_5 : ∀ i : grid1.Coords, EltTy.bits .f32 = 32 ∨ (Rect.block (s := S4096x4096) S4096x128.size (cc1_transform_5 i) (hinb1_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S64x64 : Shape := ⟨2, ![64, 64]⟩
abbrev S_ : Shape := ⟨0, ![]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S1x4096 : Shape := ⟨2, ![1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S_, .f32⟩
  | .hbm, ⟨13, _⟩ => ⟨S64x64, .f32⟩
  | .hbm, ⟨14, _⟩ => ⟨S64x1x64x1, .f32⟩
  | .hbm, ⟨15, _⟩ => ⟨S1x64x1x64, .f32⟩
  | .hbm, ⟨16, _⟩ => ⟨S64x64x64x64, .f32⟩
  | .hbm, ⟨17, _⟩ => ⟨S64x64x64x64, .f32⟩
  | .hbm, ⟨18, _⟩ => ⟨S64x64x64x64, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_cst : Ref sig .tc := ⟨.hbm, 55, rfl⟩
abbrev main_call1_v0 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  The mathematics both programs compute, stated once over plain arrays of extended reals.

  A dense layer whose weight is masked to its 64 diagonal blocks of 64 x 64, then batch normalisation over the
  4096 rows (batch statistics, biased variance) and a rectifier:
    lin i j   = (sum over k of x i k * (w k j * [k / 64 = j / 64])) + b j
    mean j    = (sum over i of lin i j) / 4096
    var j     = (sum over i of (lin i j - mean j)^2) / 4096
    inv j     = (var j + eps)^(-1/2)
  The reference normalises as ((lin - mean) * inv) * g + be; the kernel folds the statistics into a per-column
  scale g * inv and shift be - (mean * g) * inv and computes lin * scale + shift. Both then take the maximum with 0.
-/
import Idealize.ShloMosaic.PureOps.Ideal
import Idealize.ShloMosaic.Lib.ValueIdx

noncomputable section

namespace Cert.BlockBN

open Idealize.ShloMosaic Idealize.ShloMosaic.ValueIdx

/-- The two array shapes of the problem: 4096 x 4096 matrices and length-4096 vectors. -/
abbrev Sq : Shape := ⟨2, ![4096, 4096]⟩
abbrev Vc : Shape := ⟨1, ![4096]⟩

abbrev Mat := Fin 4096 → Fin 4096 → EReal
abbrev Row := Fin 4096 → EReal

/-- A matrix array read by row and column; a vector array read by position. -/
def toMat (X : Sq.Idx → EReal) : Mat := fun i k => X (ix2 i k)
def toRow (B : Vc.Idx → EReal) : Row := fun j => B (ix1 j)

/-- The divisor 4096 and the variance offset 0.001 as the float patterns both programs spell. -/
def c4096 : EReal := Ideal.ofBits .f32 0x45800000#32
def ceps : EReal := Ideal.ofBits .f32 0x3A83126F#32

/-- The block-diagonal 0/1 mask: row k and column j lie in the same block of 64. -/
def blockMask (k j : ℕ) : EReal := if k / 64 = j / 64 then 1 else 0

/-- The masked dense layer before normalisation. -/
def lin (x w : Mat) (b : Row) (i j : Fin 4096) : EReal :=
  (∑ k : Fin 4096, x i k * (w k j * blockMask k.val j.val)) + b j

/-- Column q of the t-th group of 128 columns (the kernel's grid point t covers columns 128 t .. 128 t + 127). -/
def col (t : Fin 32) (q : Fin 128) : Fin 4096 := ⟨t.val * 128 + q.val, by have := t.isLt; have := q.isLt; omega⟩

/-- The masked dense layer as one grid point computes it: only the 128 rows of the weight that share the column's group
    can meet a non-zero mask entry, so the contraction runs over those 128 alone. -/
def linBlk (x w : Mat) (b : Row) (i : Fin 4096) (t : Fin 32) (q : Fin 128) : EReal :=
  (∑ k : Fin 128, x i (col t k) * (w (col t k) (col t q) * blockMask k.val q.val)) + b (col t q)

/-- Column statistics over the 4096 rows. -/
def mean (o : Mat) (j : Fin 4096) : EReal := Ideal.div (∑ i : Fin 4096, o i j) c4096
def var (o : Mat) (j : Fin 4096) : EReal :=
  Ideal.div (∑ i : Fin 4096, (o i j - mean o j) * (o i j - mean o j)) c4096
def inv (o : Mat) (j : Fin 4096) : EReal := Ideal.rsqrt (var o j + ceps)

/-- The reference's arrangement: centre, scale by the inverse deviation, then by gamma, add beta, rectify. -/
def refOut (o : Mat) (g be : Row) (i j : Fin 4096) : EReal :=
  max (((o i j - mean o j) * inv o j) * g j + be j) 0

/-- The kernel's arrangement: per-column scale and shift first, one fused multiply-add per element, rectify. -/
def scale (o : Mat) (g : Row) (j : Fin 4096) : EReal := g j * inv o j
def shift (o : Mat) (g be : Row) (j : Fin 4096) : EReal := be j - (mean o j * g j) * inv o j
def kerOut (o : Mat) (g be : Row) (i j : Fin 4096) : EReal :=
  max (o i j * scale o g j + shift o g be j) 0

/-- The two results as whole arrays of the five argument arrays. -/
def refArr (X W : Sq.Idx → EReal) (B G Be : Vc.Idx → EReal) : Sq.Idx → EReal :=
  fun idx => refOut (lin (toMat X) (toMat W) (toRow B)) (toRow G) (toRow Be) (idx 0) (idx 1)
def kerArr (X W : Sq.Idx → EReal) (B G Be : Vc.Idx → EReal) : Sq.Idx → EReal :=
  fun idx => kerOut (lin (toMat X) (toMat W) (toRow B)) (toRow G) (toRow Be) (idx 0) (idx 1)

/-- An array all of whose entries are real numbers. -/
def Finite {S : Shape} (A : S.Idx → EReal) : Prop := ∀ idx, A idx ≠ ⊤ ∧ A idx ≠ ⊥

end Cert.BlockBN

end
-- ==== Proof.RefValue.lean ====
/-
  The reference program's result, read one element at a time, is the specification's array.

  The block-diagonal mask is the Kronecker product of the 64 x 64 identity with the 64 x 64 matrix of ones: its entry
  (k, j) is the identity's entry (k / 64, j / 64), that is 1 when row k and column j lie in the same block of 64 and 0
  otherwise. The dense layer contracts x with the masked weight and adds the bias; the column mean and the biased column
  variance are sums over the 4096 rows divided by 4096; the inverse deviation is the reciprocal square root of the variance
  plus the offset; the result centres, scales by the inverse deviation and by gamma, adds beta, and takes the maximum with 0.
-/
import proofs.«106294_j39298950758467_1_alg».proof.Proof.Spec
import proofs.«106294_j39298950758467_1_alg».proof.Proof.Gen.ReferenceIdeal.Read
import Idealize.ShloMosaic.Lib.ValueIdx
import Idealize.ShloMosaic.PureOps.Ideal.Laws

noncomputable section

namespace Cert.BlockBN.Ref

open Cert.ReferenceIdeal Cert.ReferenceIdeal.Read Idealize.ShloMosaic Idealize.ShloMosaic.ValueIdx

/-- The float pattern of 1.0 denotes the real number one. -/
theorem one_f32 : Ideal.ofBits .f32 0x3F800000#32 = 1 := by
  simp [Ideal.ofBits, Ideal.ieee, -EReal.coe_mul]; norm_num

/-- The 64 x 64 identity: the row number plus zero compared with the column number, converted to a float. -/
theorem eye_apply (p q : Fin 64) :
    val_main_v5 (F := Ideal) (ix2 p q) = if p.val = q.val then 1 else 0 := by
  rw [val_main_v5_apply, val_main_v4_apply, val_main_v3_apply, val_main_v0_apply, val_main_v1_apply,
    val_main_v2_apply, val_main_c_apply]
  show (((IntOp.cmpi .eq (IntOp.addi (BitVec.ofNat 32 p.val) 0#32) (BitVec.ofNat 32 q.val)).toNat : ℝ) : EReal) = _
  have hp := p.isLt
  have hq := q.isLt
  unfold IntOp.cmpi IntOp.addi
  by_cases h : p.val = q.val
  · rw [if_pos h, h]; simp
  · rw [if_neg h]
    have : (BitVec.ofNat 32 p.val + 0#32 == BitVec.ofNat 32 q.val) = false := by
      rw [beq_eq_false_iff_ne]
      intro e
      apply h
      have := congrArg BitVec.toNat e
      simp at this
      omega
    rw [this]; simp

/-- The mask entry (k, j): the reshape reads the product array at ((4096 k + j) / 64^3, ..., (4096 k + j) mod 64); the two
    broadcasts read the identity at the first and third of these coordinates, which are k / 64 and j / 64, and the ones
    matrix everywhere. -/
theorem mask_apply (k j : Fin 4096) : val_main_v7 (F := Ideal) (ix2 k j) = blockMask k.val j.val := by
  have hk := k.isLt
  have hj := j.isLt
  rw [val_main_v7_apply, val_main_call0_v4_apply, val_main_call0_v2_apply, val_main_call0_v3_apply,
    val_main_call0_v0_apply, val_main_call0_v1_apply, val_main_v6_apply, val_main_cst_apply]
  have e : idx_main_call0_v0 (idx_main_call0_v2 (idx_main_v7 (ix2 k j)))
      = ix2 (⟨(k.val * 4096 + j.val) / 262144, by omega⟩ : Fin 64) (⟨(k.val * 4096 + j.val) / 64 % 64, by omega⟩ : Fin 64) :=
    funext fun a => Fin.ext (by match a with | ⟨0, _⟩ => rfl | ⟨1, _⟩ => rfl)
  rw [e, eye_apply]
  show (if _ then (1 : EReal) else 0) * Ideal.ofBits .f32 0x3F800000#32 = _
  rw [one_f32, mul_one]
  unfold blockMask
  have h1 : (k.val * 4096 + j.val) / 262144 = k.val / 64 := by omega
  have h2 : (k.val * 4096 + j.val) / 64 % 64 = j.val / 64 := by omega
  show (if (k.val * 4096 + j.val) / 262144 = (k.val * 4096 + j.val) / 64 % 64 then (1 : EReal) else 0) = _
  rw [h1, h2]

variable (X W : Sq.Idx → EReal) (B G Be : Vc.Idx → EReal)

/-- The masked dense layer at (i, j): the contraction reads x at (i, k) and the masked weight at (k, j); the bias is read at j. -/
theorem lin_apply (i j : Fin 4096) :
    val_main_v12 (F := Ideal) X W B (ix2 i j) = lin (toMat X) (toMat W) (toRow B) i j := by
  rw [val_main_v12_apply, val_main_v9_apply, val_main_v11_apply, val_main_v10_apply]
  have eb : idx_main_v10 (idx_main_v11 (ix2 i j)) = ix1 j :=
    funext fun a => Fin.ext (by match a with | ⟨0, _⟩ => rfl)
  rw [eb]
  unfold lin toMat toRow
  refine congrArg (· + B (ix1 j)) (Finset.sum_congr rfl fun k _ => ?_)
  have el : lidx_main_v9 (ix2 i j) k = ix2 i k :=
    funext fun a => Fin.ext (by match a with | ⟨0, _⟩ => rfl | ⟨1, _⟩ => rfl)
  have er : ridx_main_v9 (ix2 i j) k = ix2 k j :=
    funext fun a => Fin.ext (by match a with | ⟨0, _⟩ => rfl | ⟨1, _⟩ => rfl)
  rw [el, er, val_main_v8_apply, mask_apply]
  rfl

/-- The column mean at j: zero plus the sum over the rows, divided by 4096. -/
theorem mean_apply (j : Fin 4096) :
    val_main_v15 (F := Ideal) X W B (ix1 j) = mean (lin (toMat X) (toMat W) (toRow B)) j := by
  rw [val_main_v15_apply, val_main_v13_apply, val_main_v14_apply, val_main_cst_0_apply, val_main_cst_1_apply]
  show Ideal.div (Ideal.ofBits .f32 0x00000000#32 + ∑ k : Fin 4096, _) (Ideal.ofBits .f32 0x45800000#32) = _
  rw [Ideal.ofBits_zero_f32, zero_add]
  unfold mean c4096
  refine congrArg (Ideal.div · _) (Finset.sum_congr rfl fun k _ => ?_)
  have e : idx_main_v13 (ix1 j) k = ix2 k j :=
    funext fun a => Fin.ext (by match a with | ⟨0, _⟩ => rfl | ⟨1, _⟩ => rfl)
  rw [e, lin_apply]

/-- The centred entry at (i, j): the mean is broadcast back along the rows. -/
theorem centred_apply (i j : Fin 4096) :
    val_main_v18 (F := Ideal) X W B (ix2 i j)
      = lin (toMat X) (toMat W) (toRow B) i j - mean (lin (toMat X) (toMat W) (toRow B)) j := by
  rw [val_main_v18_apply, val_main_v17_apply, val_main_v16_apply, lin_apply]
  have e : idx_main_v16 (idx_main_v17 (ix2 i j)) = ix1 j :=
    funext fun a => Fin.ext (by match a with | ⟨0, _⟩ => rfl)
  rw [e, mean_apply]
  rfl

/-- The biased column variance at j. -/
theorem var_apply (j : Fin 4096) :
    val_main_v22 (F := Ideal) X W B (ix1 j) = var (lin (toMat X) (toMat W) (toRow B)) j := by
  rw [val_main_v22_apply, val_main_v20_apply, val_main_v21_apply, val_main_cst_2_apply, val_main_cst_3_apply]
  show Ideal.div (Ideal.ofBits .f32 0x00000000#32 + ∑ k : Fin 4096, _) (Ideal.ofBits .f32 0x45800000#32) = _
  rw [Ideal.ofBits_zero_f32, zero_add]
  unfold var c4096
  refine congrArg (Ideal.div · _) (Finset.sum_congr rfl fun k _ => ?_)
  have e : idx_main_v20 (ix1 j) k = ix2 k j :=
    funext fun a => Fin.ext (by match a with | ⟨0, _⟩ => rfl | ⟨1, _⟩ => rfl)
  rw [e, val_main_v19_apply, centred_apply]
  rfl

/-- The inverse deviation at j: the reciprocal square root of the variance plus the offset. -/
theorem inv_apply (j : Fin 4096) :
    val_main_v28 (F := Ideal) X W B (ix1 j) = inv (lin (toMat X) (toMat W) (toRow B)) j := by
  rw [val_main_v28_apply, val_main_v27_apply, var_apply, val_main_v26_apply, val_main_cst_4_apply]
  rfl

/-- The reference's result is the specification's array: centre, scale by the inverse deviation and by gamma, add beta,
    take the maximum with zero; each column statistic is broadcast back along the rows. -/
theorem ref_value :
    val_main_v38 (F := Ideal) X W B G Be = refArr X W B G Be := by
  funext idx
  obtain ⟨i, j, rfl⟩ : ∃ i j, idx = ix2 i j := ⟨idx 0, idx 1, eq_ix2 idx⟩
  show _ = refOut (lin (toMat X) (toMat W) (toRow B)) (toRow G) (toRow Be) i j
  rw [val_main_v38_apply, val_main_v37_apply, val_main_v34_apply, val_main_v31_apply, val_main_v25_apply,
    val_main_v24_apply, val_main_v23_apply, val_main_v30_apply, val_main_v29_apply, val_main_v33_apply,
    val_main_v32_apply, val_main_v36_apply, val_main_v35_apply, val_main_call1_v0_apply, val_main_call1_cst_apply,
    lin_apply]
  have e1 : idx_main_v23 (idx_main_v24 (ix2 i j)) = ix1 j :=
    funext fun a => Fin.ext (by match a with | ⟨0, _⟩ => rfl)
  have e2 : idx_main_v29 (idx_main_v30 (ix2 i j)) = ix1 j :=
    funext fun a => Fin.ext (by match a with | ⟨0, _⟩ => rfl)
  have e3 : idx_main_v32 (idx_main_v33 (ix2 i j)) = ix1 j :=
    funext fun a => Fin.ext (by match a with | ⟨0, _⟩ => rfl)
  have e4 : idx_main_v35 (idx_main_v36 (ix2 i j)) = ix1 j :=
    funext fun a => Fin.ext (by match a with | ⟨0, _⟩ => rfl)
  rw [e1, e2, e3, e4, mean_apply, inv_apply]
  show max _ (Ideal.ofBits .f32 0x00000000#32) = _
  rw [Ideal.ofBits_zero_f32]
  rfl

end Cert.BlockBN.Ref

end
-- ==== Proof.Algebra.lean ====
/-
  The algebra of the masked dense layer and its batch normalisation, over plain arrays of extended reals.

  Three facts. The block mask vanishes outside a column's own group of 128 rows, so the contraction over all
  4096 rows equals the contraction over that group. Real entries keep every intermediate quantity real: the
  layer's output, the column mean, the (non-negative) column variance and the inverse deviation. And on reals
  the scale-and-shift arrangement  a * (g * r) + (be - (m * g) * r)  equals the centre-then-scale arrangement
  ((a - m) * r) * g + be  by the ring laws.
-/
import proofs.«106294_j39298950758467_1_alg».proof.Proof.Spec

noncomputable section

namespace Cert.BlockBN

open Idealize.ShloMosaic Idealize.ShloMosaic.ValueIdx

/-! ### The two constants -/

/-- The divisor's pattern denotes the real number 4096 = 2^12. -/
theorem c4096_eq : c4096 = ((4096 : ℝ) : EReal) := by
  unfold c4096
  simp [Ideal.ofBits, Ideal.ieee, -EReal.coe_mul]; norm_num

/-- The variance offset's pattern denotes a positive real number. -/
theorem ceps_pos : ∃ r : ℝ, 0 < r ∧ ceps = (r : EReal) := by
  unfold ceps
  simp [Ideal.ofBits, Ideal.ieee, -EReal.coe_mul]

/-! ### The mask and the column's group -/

/-- A row outside group t meets a zero mask entry in every column of group t: equal blocks of 64 would
    force equal groups of 128. -/
theorem blockMask_off (t : Fin 32) (q : Fin 128) (k : Fin 4096) (hk : k.val / 128 ≠ t.val) :
    blockMask k.val (col t q).val = 0 := by
  unfold blockMask col
  have := q.isLt
  have := t.isLt
  rw [if_neg]
  simp only
  omega

/-- Inside group t the mask depends only on the positions within the group, since 128 t is a multiple of 64. -/
theorem blockMask_col (t : Fin 32) (k q : Fin 128) :
    blockMask (col t k).val (col t q).val = blockMask k.val q.val := by
  unfold blockMask col
  have := q.isLt
  have := k.isLt
  have := t.isLt
  simp only
  have h : ((t.val * 128 + k.val) / 64 = (t.val * 128 + q.val) / 64) ↔ (k.val / 64 = q.val / 64) := by omega
  simp only [h]

/-- Positions within a group name distinct rows. -/
theorem col_injective (t : Fin 32) : Function.Injective (col t) := by
  intro a b h
  have := congrArg Fin.val h
  simp only [col] at this
  exact Fin.ext (by omega)

/-- Outside the column's own group of 128 rows the mask is zero, so the contraction over all 4096 rows is the one
    over the group. No finiteness needed: x * (w * 0) = 0 on the extended reals. -/
theorem lin_col (x w : Mat) (b : Row) (i : Fin 4096) (t : Fin 32) (q : Fin 128) :
    lin x w b i (col t q) = linBlk x w b i t q := by
  unfold lin linBlk
  congr 1
  symm
  apply Finset.sum_of_injOn (col t) ((col_injective t).injOn) (by simp)
  · intro k _ hk
    have hk' : k.val / 128 ≠ t.val := by
      intro h
      apply hk
      have := k.isLt
      refine ⟨⟨k.val % 128, Nat.mod_lt _ (by norm_num)⟩, by simp, ?_⟩
      apply Fin.ext
      simp only [col]
      omega
    rw [blockMask_off t q k hk', mul_zero, mul_zero]
  · intro k _
    rw [blockMask_col]

/-! ### Real entries stay real -/

/-- A finite sum of real numbers, read in the extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- An extended real that is neither infinity is a real number. -/
theorem exists_real (a : EReal) (h : a ≠ ⊤ ∧ a ≠ ⊥) : ∃ r : ℝ, a = (r : EReal) :=
  ⟨a.toReal, (EReal.coe_toReal h.1 h.2).symm⟩

/-- A matrix of real entries is the entrywise image of a real matrix. -/
theorem exists_realMat (x : Mat) (hx : ∀ i k, x i k ≠ ⊤ ∧ x i k ≠ ⊥) :
    ∃ xr : Fin 4096 → Fin 4096 → ℝ, x = fun i k => ((xr i k : ℝ) : EReal) := by
  choose xr hxr using fun i k => exists_real (x i k) (hx i k)
  exact ⟨xr, funext fun i => funext fun k => hxr i k⟩

/-- A row of real entries is the entrywise image of a real row. -/
theorem exists_realRow (b : Row) (hb : ∀ j, b j ≠ ⊤ ∧ b j ≠ ⊥) :
    ∃ br : Fin 4096 → ℝ, b = fun j => ((br j : ℝ) : EReal) := by
  choose br hbr using fun j => exists_real (b j) (hb j)
  exact ⟨br, funext hbr⟩

/-- The mask is the real number 0 or 1. -/
theorem blockMask_coe (k j : ℕ) : blockMask k j = (((if k / 64 = j / 64 then 1 else 0 : ℝ)) : EReal) := by
  unfold blockMask
  split <;> simp

/-- On real matrices the masked dense layer is the real masked dense layer. -/
theorem lin_coe (xr wr : Fin 4096 → Fin 4096 → ℝ) (br : Fin 4096 → ℝ) (i j : Fin 4096) :
    lin (fun i k => ((xr i k : ℝ) : EReal)) (fun k j => ((wr k j : ℝ) : EReal)) (fun j => ((br j : ℝ) : EReal)) i j
      = (((∑ k : Fin 4096, xr i k * (wr k j * (if k.val / 64 = j.val / 64 then 1 else 0))) + br j : ℝ) : EReal) := by
  unfold lin
  simp only [blockMask_coe, ← EReal.coe_mul]
  rw [coe_sum, ← EReal.coe_add]

/-- Real entries give a real masked dense layer. -/
theorem lin_finite (x w : Mat) (b : Row) (hx : ∀ i k, x i k ≠ ⊤ ∧ x i k ≠ ⊥) (hw : ∀ k j, w k j ≠ ⊤ ∧ w k j ≠ ⊥)
    (hb : ∀ j, b j ≠ ⊤ ∧ b j ≠ ⊥) (i j : Fin 4096) : lin x w b i j ≠ ⊤ ∧ lin x w b i j ≠ ⊥ := by
  obtain ⟨xr, rfl⟩ := exists_realMat x hx
  obtain ⟨wr, rfl⟩ := exists_realMat w hw
  obtain ⟨br, rfl⟩ := exists_realRow b hb
  rw [lin_coe]
  exact ⟨EReal.coe_ne_top _, EReal.coe_ne_bot _⟩

/-! ### The column statistics on real entries -/

/-- A real number over the divisor 4096 is the real quotient. -/
theorem div_c4096 (r : ℝ) : Ideal.div (r : EReal) c4096 = ((r * (1 / 4096) : ℝ) : EReal) := by
  rw [c4096_eq, Ideal.div_coe (by norm_num), ← EReal.coe_mul]

/-- The column mean of a real matrix is the real mean. -/
theorem mean_coe (a : Fin 4096 → Fin 4096 → ℝ) (j : Fin 4096) :
    mean (fun i j => ((a i j : ℝ) : EReal)) j = (((∑ i : Fin 4096, a i j) * (1 / 4096) : ℝ) : EReal) := by
  unfold mean
  rw [coe_sum, div_c4096]

/-- The column variance of a real matrix is a non-negative real: a sum of squares over a positive constant. -/
theorem var_coe (a : Fin 4096 → Fin 4096 → ℝ) (j : Fin 4096) :
    ∃ v : ℝ, 0 ≤ v ∧ var (fun i j => ((a i j : ℝ) : EReal)) j = (v : EReal) := by
  unfold var
  rw [mean_coe]
  simp only [← EReal.coe_sub, ← EReal.coe_mul]
  rw [coe_sum, div_c4096]
  refine ⟨_, ?_, rfl⟩
  apply mul_nonneg
  · exact Finset.sum_nonneg fun i _ => mul_self_nonneg _
  · norm_num

/-- The inverse deviation of a real matrix is real: variance plus the positive offset is positive, so the
    inverse square root is the ordinary one. -/
theorem inv_coe (a : Fin 4096 → Fin 4096 → ℝ) (j : Fin 4096) :
    ∃ ρ : ℝ, inv (fun i j => ((a i j : ℝ) : EReal)) j = (ρ : EReal) := by
  obtain ⟨v, hv, hvar⟩ := var_coe a j
  obtain ⟨r, hr, hceps⟩ := ceps_pos
  have hpos : 0 < v + r := by linarith
  unfold inv
  rw [hvar, hceps, ← EReal.coe_add, Ideal.rsqrt_coe, if_neg (not_lt.mpr hpos.le), if_neg hpos.ne']
  exact ⟨_, rfl⟩

/-! ### The two arrangements agree -/

/-- The kernel's scale-and-shift arrangement equals the reference's centre-then-scale one when everything is real. -/
theorem kerOut_eq_refOut (o : Mat) (g be : Row) (ho : ∀ i j, o i j ≠ ⊤ ∧ o i j ≠ ⊥) (hg : ∀ j, g j ≠ ⊤ ∧ g j ≠ ⊥)
    (hbe : ∀ j, be j ≠ ⊤ ∧ be j ≠ ⊥) (i j : Fin 4096) : kerOut o g be i j = refOut o g be i j := by
  obtain ⟨a, rfl⟩ := exists_realMat o ho
  obtain ⟨γ, rfl⟩ := exists_realRow g hg
  obtain ⟨β, rfl⟩ := exists_realRow be hbe
  obtain ⟨ρ, hρ⟩ := inv_coe a j
  unfold kerOut refOut scale shift
  rw [hρ, mean_coe]
  simp only [← EReal.coe_sub, ← EReal.coe_mul, ← EReal.coe_add]
  congr 2
  ring

/-- The two whole-array results agree on real inputs. -/
theorem kerArr_eq_refArr (X W : Sq.Idx → EReal) (B G Be : Vc.Idx → EReal) (hX : Finite X) (hW : Finite W) (hB : Finite B)
    (hG : Finite G) (hBe : Finite Be) : kerArr X W B G Be = refArr X W B G Be := by
  funext idx
  unfold kerArr refArr
  exact kerOut_eq_refOut _ _ _
    (fun i j => lin_finite _ _ _ (fun i k => hX _) (fun k j => hW _) (fun j => hB _) i j)
    (fun j => hG _) (fun j => hBe _) _ _

end Cert.BlockBN

end
-- ==== Proof.FiniteInputs.lean ====
/-
  From the precondition "every input entry has absolute value below +infinity" to the plain statement that
  each of the five argument arrays holds only real numbers.

  The precondition is one bit: the conjunction of five "all entries satisfy |a| < +infinity" tests. A conjunction of
  bits is 1 only if each is; an "all" that is 1 says its test is 1 at every index; and over the extended reals
  max a (-a) < +infinity fails at both infinities, since max a (-a) is +infinity at each of them.
-/
import proofs.«106294_j39298950758467_1_alg».proof.Proof.Spec
import proofs.«106294_j39298950758467_1_alg».proof.Defs
import proofs.«106294_j39298950758467_1_alg».proof.Proof.Gen.Pre_finite_inputs
import proofs.«106294_j39298950758467_1_alg».proof.Proof.Gen.KernelIdeal
import Idealize.ShloMosaic.Lib.ReduceAll
import Idealize.ShloMosaic.PureOps.Ideal.Laws

noncomputable section

namespace Cert.BlockBN

open Idealize.ShloMosaic Idealize.ShloMosaic.ValueIdx Idealize.SL.Sem

/-- The pattern 0x7F800000 denotes +infinity. -/
theorem ofBits_inf : Ideal.ofBits .f32 0x7F800000#32 = (⊤ : EReal) := by
  simp [Ideal.ofBits, Ideal.ieee]

/-- One entry: if the test |x| < +infinity comes out 1 then x is neither infinity. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    x ≠ ⊤ ∧ x ≠ ⊥ := by
  rw [Ideal.hostAbsf_def, Ideal.absf_def, Ideal.cmpf_def, Ideal.ofBits_def, ofBits_inf] at h
  induction x using EReal.rec with
  | bot => simp [Ideal.cmp] at h
  | top => simp [Ideal.cmp] at h
  | coe r => exact ⟨EReal.coe_ne_top r, EReal.coe_ne_bot r⟩

/-- The result of a reduction over every axis has a single index. -/
instance : Subsingleton Cert.Pre_finite_inputs.S_.Idx := ⟨fun a b => funext fun d => d.elim0⟩

/-- One "all entries have absolute value below +infinity" test that came out 1: the array is real everywhere. -/
theorem finite_of_all {S : Shape} {axes : List (Fin S.rank)} (A : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf (F := Ideal) (φ := .f32) A)
            (broadcastInDim S ![] hb (constant (F := Ideal) Cert.Pre_finite_inputs.S_ .f32 0x7F800000#32)))
          (constantI Cert.Pre_finite_inputs.S_ 1 1#1) hr hu ix0 = 1#1) :
    Finite A :=
  fun idx => real_of_abs_lt_inf (A idx) (Host.reduce_andi_all _ _ hr hu ix0 e idx)

theorem finite_of_fn (X W : Sq.Idx → EReal) (B G Be : Vc.Idx → EReal)
    (h : Cert.Pre_finite_inputs.fn (F := Ideal) X W B G Be = (fun _ => 1#1)) :
    Finite X ∧ Finite W ∧ Finite B ∧ Finite G ∧ Finite Be := by
  have h0 := congrFun h ValueIdx.ix0
  dsimp only [Cert.Pre_finite_inputs.fn, Cert.Pre_finite_inputs.fn_part1] at h0
  change IntOp.andi (IntOp.andi (IntOp.andi (IntOp.andi _ _) _) _) _ = 1#1 at h0
  simp only [IntOp.andi_eq_one] at h0
  obtain ⟨⟨⟨⟨hX, hW⟩, hB⟩, hG⟩, hBe⟩ := h0
  exact ⟨finite_of_all X _ _ _ hX, finite_of_all W _ _ _ hW, finite_of_all B _ _ _ hB,
    finite_of_all G _ _ _ hG, finite_of_all Be _ _ _ hBe⟩

/-- The certificate's precondition on a memory gives, on every device, that each of the five argument arrays is real everywhere. -/
theorem finite_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Finite (S := Sq) (m ((c.tc : Thread Cert.KernelIdeal.nD Cert.KernelIdeal.τ).loc Cert.KernelIdeal.main_arg0))
    ∧ Finite (S := Sq) (m ((c.tc : Thread Cert.KernelIdeal.nD Cert.KernelIdeal.τ).loc Cert.KernelIdeal.main_arg1))
    ∧ Finite (S := Vc) (m ((c.tc : Thread Cert.KernelIdeal.nD Cert.KernelIdeal.τ).loc Cert.KernelIdeal.main_arg2))
    ∧ Finite (S := Vc) (m ((c.tc : Thread Cert.KernelIdeal.nD Cert.KernelIdeal.τ).loc Cert.KernelIdeal.main_arg3))
    ∧ Finite (S := Vc) (m ((c.tc : Thread Cert.KernelIdeal.nD Cert.KernelIdeal.τ).loc Cert.KernelIdeal.main_arg4)) :=
  finite_of_fn _ _ _ _ _ (h c)

end Cert.BlockBN

end
-- ==== Proof.KernelPay.lean ====
import proofs.«106294_j39298950758467_1_alg».proof.Proof.Spec
import proofs.«106294_j39298950758467_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.BlockBN.Ker

open Cert.KernelIdeal Cert.KernelIdeal.Gen Idealize.ShloMosaic Idealize.ShloMosaic.ValueIdx Cert.BlockBN

/-! ## The in-kernel mask: two lane numbers floor-divided by 64 and compared -/

/-- One lane of the printed floor division by 64 (truncating division, corrected by one when the signs differ and the
    remainder is not zero). -/
def floorDiv64 (n : BitVec 32) : BitVec 32 :=
  Scalar.select
      (IntOp.andi
        (IntOp.cmpi CmpIPredicate.ne
          (IntOp.subi (BitVec.setWidth 32 (IntOp.cmpi CmpIPredicate.sgt n 0#32)) (BitVec.setWidth 32 (IntOp.cmpi CmpIPredicate.slt n 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector n 64#32) 0#32))
      (IntOp.subi (IntOp.divsi ArithUnit.vector n 64#32) 1#32)
      (IntOp.divsi ArithUnit.vector n 64#32)

/-- On the lane numbers 0 .. 127 it is the natural-number quotient: 0 on the first 64 lanes, 1 on the rest. -/
theorem floorDiv64_ofNat : ∀ n : Fin 128, floorDiv64 (BitVec.ofNat 32 n.val) = BitVec.ofNat 32 (n.val / 64) := by decide

/-- The two quotients, each 0 or 1, compared for equality and widened to a word. -/
theorem eqBit : ∀ a b : Fin 2, BitVec.setWidth 32 (IntOp.cmpi CmpIPredicate.eq (BitVec.ofNat 32 a.val) (BitVec.ofNat 32 b.val)) = if a.val = b.val then 1#32 else 0#32 := by decide

theorem iotaRow (k q : Fin 128) : iota Kind.tc S128x128 32 [0] iota_S128x128_d0_w32 (ix2 k q) = BitVec.ofNat 32 k.val :=
  iota_single_apply _ _ _ _ _ _
theorem iotaCol (k q : Fin 128) : iota Kind.tc S128x128 32 [1] iota_S128x128_d1_w32 (ix2 k q) = BitVec.ofNat 32 q.val :=
  iota_single_apply _ _ _ _ _ _

/-- The mask as a float, from the two quotient vectors: 1 where row and column share a block of 64, else 0. -/
theorem maskOf (rowq colq : IVec S128x128 32) (k q : Fin 128) (hr : rowq (ix2 k q) = BitVec.ofNat 32 (k.val / 64))
    (hc : colq (ix2 k q) = BitVec.ofNat 32 (q.val / 64)) :
    (sitofp .f32 (extui 32 (cmpi .eq rowq colq) natLt_1_32) : FVec Ideal S128x128 .f32) (ix2 k q) = blockMask k.val q.val := by
  show FloatOps.sitofp (F := Ideal) .f32 (BitVec.setWidth 32 (IntOp.cmpi .eq (rowq (ix2 k q)) (colq (ix2 k q)))) = _
  rw [hr, hc]
  have hk : k.val / 64 < 2 := by have := k.isLt; omega
  have hq : q.val / 64 < 2 := by have := q.isLt; omega
  rw [eqBit ⟨k.val / 64, hk⟩ ⟨q.val / 64, hq⟩]
  unfold blockMask
  show FloatOps.sitofp (F := Ideal) .f32 (if k.val / 64 = q.val / 64 then 1#32 else 0#32) = _
  split_ifs
  · show (((1#32 : BitVec 32).toInt : ℝ) : EReal) = 1
    norm_num
  · show (((0#32 : BitVec 32).toInt : ℝ) : EReal) = 0
    norm_num

/-- The row quotient and the column quotient of the first kernel, lane by lane. -/
theorem rowq0 (k q : Fin 128) : k0_pay1 (ix2 k q) = BitVec.ofNat 32 (k.val / 64) := by
  unfold k0_pay1
  simp only [select, andi, subi, cmpi, extui, remsi, divsi, broadcast]
  exact (congrArg floorDiv64 (iotaRow k q)).trans (floorDiv64_ofNat k)
theorem colq0 (k q : Fin 128) : (select (andi k0_pay3 k0_pay4) (subi k0_pay2 (broadcast S128x128 1#32)) k0_pay2) (ix2 k q) = BitVec.ofNat 32 (q.val / 64) := by
  unfold k0_pay2 k0_pay3 k0_pay4
  simp only [select, andi, subi, cmpi, extui, remsi, divsi, broadcast]
  exact (congrArg floorDiv64 (iotaCol k q)).trans (floorDiv64_ofNat q)
/-- The same of the second kernel, which recomputes the mask. -/
theorem rowq1 (k q : Fin 128) : k1_pay2 (ix2 k q) = BitVec.ofNat 32 (k.val / 64) := by
  unfold k1_pay2
  simp only [select, andi, subi, cmpi, extui, remsi, divsi, broadcast]
  exact (congrArg floorDiv64 (iotaRow k q)).trans (floorDiv64_ofNat k)
theorem colq1 (k q : Fin 128) : (select (andi k1_pay4 k1_pay5) (subi k1_pay3 (broadcast S128x128 1#32)) k1_pay3) (ix2 k q) = BitVec.ofNat 32 (q.val / 64) := by
  unfold k1_pay3 k1_pay4 k1_pay5
  simp only [select, andi, subi, cmpi, extui, remsi, divsi, broadcast]
  exact (congrArg floorDiv64 (iotaCol k q)).trans (floorDiv64_ofNat q)

/-! ## The 128-deep contraction of one grid point -/

theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The matrix product into a zero accumulator at (p, q): the sum over the 128 shared coordinates. -/
theorem matmul_at (l : FVec Ideal S4096x128 .bf16) (r : FVec Ideal S128x128 .bf16) (p : Fin 4096) (q : Fin 128) :
    matmul dot_S4096x128_S128x128_S4096x128_1_0_0_1_n_n none l r (constant S4096x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The bodies' values at an index -/

variable (xb : FVec Ideal S4096x128 .f32) (wb : FVec Ideal S128x128 .f32) (bb gb eb sb hb : FVec Ideal S1x128 .f32)

/-- A column's sum over the 4096 rows of a block. -/
theorem colSum_at (v : FVec Ideal S4096x128 .f32) (q : Fin 128) :
    multiReduction .add [0] S128 v 0x00000000#32 reduces_S4096x128_S128 (.inl rfl) rfl (ix1 q) = ∑ p : Fin 4096, v (ix2 p q) :=
  (Ideal.multiReduction_add_single v _ reduces_S4096x128_S128 (.inl rfl) rfl (ix1 q)).trans
    (Finset.sum_congr rfl fun p _ => congrArg v (funext fun ax => Fin.ext (by
      match ax with
      | ⟨0, _⟩ => rfl
      | ⟨1, _⟩ => rfl)))

/-- The masked dense layer of one grid point at (p, q): 128 products and the bias. -/
def linAt (p : Fin 4096) (q : Fin 128) : EReal :=
  (∑ k : Fin 128, xb (ix2 p k) * (wb (ix2 k q) * blockMask k.val q.val)) + bb (ix2 (0 : Fin 1) q)

theorem pay5_at (p : Fin 4096) (q : Fin 128) :
    k0_pay5 (F := Ideal) k0_pay1 k0_pay2 k0_pay3 k0_pay4 wb xb bb (ix2 p q) = linAt xb wb bb p q := by
  unfold k0_pay5 linAt
  show FloatOps.addf (matmul dot_S4096x128_S128x128_S4096x128_1_0_0_1_n_n none _ _ (constant S4096x128 .f32 0x00000000#32) (ix2 p q))
      (broadcastTo S4096x128 (shapeCast S1x128 bb shapeCasts_S1x128_S1x128) broadcasts_S1x128_S4096x128 (ix2 p q)) = _
  rw [matmul_at, shapeCast_self, broadcastTo_1b_ab_apply]
  refine congrArg (· + bb (ix2 (0 : Fin 1) q)) (Finset.sum_congr rfl fun k _ => ?_)
  show xb (ix2 p k) * (wb (ix2 k q) * _) = _
  rw [maskOf _ _ k q (rowq0 k q) (colq0 k q)]

/-- The first kernel's pre-normalisation block, its column mean, inverse deviation, scale and shift, as the payloads name them. -/
abbrev P5 : FVec Ideal S4096x128 .f32 := k0_pay5 (F := Ideal) k0_pay1 k0_pay2 k0_pay3 k0_pay4 wb xb bb
abbrev P6 : FVec Ideal S1x128 .f32 := k0_pay6 (F := Ideal) k0_pay1 k0_pay2 k0_pay3 k0_pay4 wb xb bb
abbrev P7 : FVec Ideal S1x128 .f32 := k0_pay7 (F := Ideal) k0_pay1 k0_pay2 k0_pay3 k0_pay4 wb xb bb

/-- The column mean: the column's sum over the rows, divided by 4096. -/
theorem pay6_at (q : Fin 128) :
    P6 xb wb bb (ix2 (0 : Fin 1) q) = Ideal.div (∑ p : Fin 4096, P5 xb wb bb (ix2 p q)) c4096 := by
  unfold P6 k0_pay6
  show FloatOps.divf (shapeCast S1x128 (multiReduction .add [0] S128 (P5 xb wb bb) 0x00000000#32 reduces_S4096x128_S128 (.inl rfl) rfl) shapeCasts_S128_S1x128 (ix2 (0 : Fin 1) q)) _ = _
  rw [shapeCast_a_1a_apply, colSum_at]
  rfl

/-- The inverse deviation: the centred squares summed over the rows, divided by 4096, offset, inverse square root. -/
theorem pay7_at (q : Fin 128) :
    P7 xb wb bb (ix2 (0 : Fin 1) q)
      = Ideal.rsqrt (Ideal.div (∑ p : Fin 4096, (P5 xb wb bb (ix2 p q) - P6 xb wb bb (ix2 (0 : Fin 1) q)) * (P5 xb wb bb (ix2 p q) - P6 xb wb bb (ix2 (0 : Fin 1) q))) c4096 + ceps) := by
  unfold P7 k0_pay7
  show FloatOps.rsqrt (FloatOps.addf (FloatOps.divf (shapeCast S1x128 (multiReduction .add [0] S128
      (mulf (subf (P5 xb wb bb) (broadcastTo S4096x128 (P6 xb wb bb) broadcasts_S1x128_S4096x128)) (subf (P5 xb wb bb) (broadcastTo S4096x128 (P6 xb wb bb) broadcasts_S1x128_S4096x128)))
      0x00000000#32 reduces_S4096x128_S128 (.inl rfl) rfl) shapeCasts_S128_S1x128 (ix2 (0 : Fin 1) q)) _) _) = _
  rw [shapeCast_a_1a_apply, colSum_at]
  have hs : ∀ p : Fin 4096, (mulf (subf (P5 xb wb bb) (broadcastTo S4096x128 (P6 xb wb bb) broadcasts_S1x128_S4096x128)) (subf (P5 xb wb bb) (broadcastTo S4096x128 (P6 xb wb bb) broadcasts_S1x128_S4096x128))) (ix2 p q)
      = (P5 xb wb bb (ix2 p q) - P6 xb wb bb (ix2 (0 : Fin 1) q)) * (P5 xb wb bb (ix2 p q) - P6 xb wb bb (ix2 (0 : Fin 1) q)) := fun p => by
    show (P5 xb wb bb (ix2 p q) - broadcastTo S4096x128 (P6 xb wb bb) broadcasts_S1x128_S4096x128 (ix2 p q)) * (P5 xb wb bb (ix2 p q) - broadcastTo S4096x128 (P6 xb wb bb) broadcasts_S1x128_S4096x128 (ix2 p q)) = _
    rw [broadcastTo_1b_ab_apply]
  rw [Finset.sum_congr rfl fun p _ => hs p]
  rfl

/-- The scale: gamma times the inverse deviation. -/
theorem pay9_at (q : Fin 128) :
    k0_pay9 (F := Ideal) k0_pay1 k0_pay2 k0_pay3 k0_pay4 wb xb bb gb (ix2 (0 : Fin 1) q) = gb (ix2 (0 : Fin 1) q) * P7 xb wb bb (ix2 (0 : Fin 1) q) := by
  unfold k0_pay9 k0_pay8
  show shapeCast S1x128 gb shapeCasts_S1x128_S1x128 (ix2 (0 : Fin 1) q) * _ = _
  rw [shapeCast_self]

/-- The shift: beta minus mean times gamma times the inverse deviation. -/
theorem pay10_at (q : Fin 128) :
    k0_pay10 (F := Ideal) k0_pay1 k0_pay2 k0_pay3 k0_pay4 wb xb bb gb eb (ix2 (0 : Fin 1) q)
      = eb (ix2 (0 : Fin 1) q) - (P6 xb wb bb (ix2 (0 : Fin 1) q) * gb (ix2 (0 : Fin 1) q)) * P7 xb wb bb (ix2 (0 : Fin 1) q) := by
  unfold k0_pay10 k0_pay8
  show shapeCast S1x128 eb shapeCasts_S1x128_S1x128 (ix2 (0 : Fin 1) q) - (P6 xb wb bb (ix2 (0 : Fin 1) q) * shapeCast S1x128 gb shapeCasts_S1x128_S1x128 (ix2 (0 : Fin 1) q)) * _ = _
  rw [shapeCast_self, shapeCast_self]

/-- The second kernel at (p, q): the recomputed dense layer times the scale plus the shift, rectified. -/
theorem apply_at (p : Fin 4096) (q : Fin 128) :
    k1_pay1 (F := Ideal) k1_pay2 k1_pay3 k1_pay4 k1_pay5 wb xb bb sb hb (ix2 p q)
      = max (linAt xb wb bb p q * sb (ix2 (0 : Fin 1) q) + hb (ix2 (0 : Fin 1) q)) 0 := by
  unfold k1_pay1 linAt
  show max ((matmul dot_S4096x128_S128x128_S4096x128_1_0_0_1_n_n none _ _ (constant S4096x128 .f32 0x00000000#32) (ix2 p q)
      + broadcastTo S4096x128 (shapeCast S1x128 bb shapeCasts_S1x128_S1x128) broadcasts_S1x128_S4096x128 (ix2 p q))
      * broadcastTo S4096x128 (shapeCast S1x128 sb shapeCasts_S1x128_S1x128) broadcasts_S1x128_S4096x128 (ix2 p q)
      + broadcastTo S4096x128 (shapeCast S1x128 hb shapeCasts_S1x128_S1x128) broadcasts_S1x128_S4096x128 (ix2 p q)) (Ideal.ofBits .f32 0x00000000#32) = _
  rw [matmul_at, shapeCast_self, shapeCast_self, shapeCast_self, broadcastTo_1b_ab_apply, broadcastTo_1b_ab_apply, broadcastTo_1b_ab_apply, Ideal.ofBits_zero_f32]
  refine congrArg (fun s => max ((s + bb (ix2 (0 : Fin 1) q)) * sb (ix2 (0 : Fin 1) q) + hb (ix2 (0 : Fin 1) q)) 0) (Finset.sum_congr rfl fun k _ => ?_)
  show xb (ix2 p k) * (wb (ix2 k q) * _) = _
  rw [maskOf _ _ k q (rowq1 k q) (colq1 k q)]

end Cert.BlockBN.Ker

end
-- ==== Proof.KernelCols.lean ====
/-
  One grid point's values read against the whole problem: grid point t holds columns 128 t .. 128 t + 127 of the input
  matrix, the diagonal 128 x 128 block of the weight and the matching 128 entries of each vector. Under those block
  reads the kernel's per-point quantities are the specification's column quantities at column (t, q).
-/
import proofs.«106294_j39298950758467_1_alg».proof.Proof.KernelPay
import proofs.«106294_j39298950758467_1_alg».proof.Proof.Algebra

noncomputable section

namespace Cert.BlockBN.Ker

open Cert.KernelIdeal Cert.KernelIdeal.Gen Idealize.ShloMosaic Idealize.ShloMosaic.ValueIdx Cert.BlockBN

variable (xb : FVec Ideal S4096x128 .f32) (wb : FVec Ideal S128x128 .f32) (bb gb eb sb hb : FVec Ideal S1x128 .f32)
variable (x w : Mat) (b g be : Row) (t : Fin 32)

/-- The point's blocks are the arrays' entries of group t. -/
structure Reads : Prop where
  hx : ∀ (p : Fin 4096) (k : Fin 128), xb (ix2 p k) = x p (col t k)
  hw : ∀ (k q : Fin 128), wb (ix2 k q) = w (col t k) (col t q)
  hb : ∀ q : Fin 128, bb (ix2 (0 : Fin 1) q) = b (col t q)

variable {xb wb bb x w b t}

theorem lin_point (h : Reads xb wb bb x w b t) (p : Fin 4096) (q : Fin 128) :
    P5 xb wb bb (ix2 p q) = lin x w b p (col t q) := by
  unfold P5
  rw [pay5_at, lin_col]
  unfold linAt linBlk
  rw [h.hb q]
  refine congrArg (· + b (col t q)) (Finset.sum_congr rfl fun k _ => ?_)
  rw [h.hx p k, h.hw k q]

theorem mean_point (h : Reads xb wb bb x w b t) (q : Fin 128) :
    P6 xb wb bb (ix2 (0 : Fin 1) q) = mean (lin x w b) (col t q) := by
  rw [pay6_at]
  unfold mean
  rw [Finset.sum_congr rfl fun p _ => lin_point h p q]

theorem inv_point (h : Reads xb wb bb x w b t) (q : Fin 128) :
    P7 xb wb bb (ix2 (0 : Fin 1) q) = inv (lin x w b) (col t q) := by
  rw [pay7_at, mean_point h q]
  unfold inv var
  rw [Finset.sum_congr rfl fun p _ => by rw [lin_point h p q]]

theorem scale_point (h : Reads xb wb bb x w b t) (q : Fin 128) (hg : gb (ix2 (0 : Fin 1) q) = g (col t q)) :
    k0_pay9 (F := Ideal) k0_pay1 k0_pay2 k0_pay3 k0_pay4 wb xb bb gb (ix2 (0 : Fin 1) q) = scale (lin x w b) g (col t q) := by
  rw [pay9_at, inv_point h q, hg]
  rfl

theorem shift_point (h : Reads xb wb bb x w b t) (q : Fin 128) (hg : gb (ix2 (0 : Fin 1) q) = g (col t q))
    (he : eb (ix2 (0 : Fin 1) q) = be (col t q)) :
    k0_pay10 (F := Ideal) k0_pay1 k0_pay2 k0_pay3 k0_pay4 wb xb bb gb eb (ix2 (0 : Fin 1) q) = shift (lin x w b) g be (col t q) := by
  rw [pay10_at, inv_point h q, mean_point h q, hg, he]
  rfl

theorem out_point (h : Reads xb wb bb x w b t) (p : Fin 4096) (q : Fin 128)
    (hs : sb (ix2 (0 : Fin 1) q) = scale (lin x w b) g (col t q)) (hh : hb (ix2 (0 : Fin 1) q) = shift (lin x w b) g be (col t q)) :
    k1_pay1 (F := Ideal) k1_pay2 k1_pay3 k1_pay4 k1_pay5 wb xb bb sb hb (ix2 p q) = kerOut (lin x w b) g be p (col t q) := by
  have hl : linAt xb wb bb p q = lin x w b p (col t q) := by
    rw [← pay5_at]; exact lin_point h p q
  rw [apply_at, hl, hs, hh]
  rfl

end Cert.BlockBN.Ker

end
-- ==== Proof.KernelStats.lean ====
/-
  The first region (the statistics kernel over 32 grid points) as whole arrays. Its two outputs, [1, 4096] each, end
  holding the per-column scale and shift of the specification, computed from the arrays the region is entered with:
  grid point t reads columns 128 t .. 128 t + 127 of the input matrix, the t-th diagonal 128 x 128 block of the weight and
  the matching 128 entries of bias, gamma and beta, and writes entries 128 t .. 128 t + 127 of each output; the 32 output
  blocks tile the outputs.
-/
import proofs.«106294_j39298950758467_1_alg».proof.Proof.KernelCols
import proofs.«106294_j39298950758467_1_alg».proof.Proof.Gen.KernelIdeal.Frame
import Idealize.ShloMosaic.Lib.Pipeline.Value

set_option maxRecDepth 16384

noncomputable section

namespace Cert.BlockBN.Stats

open Cert.KernelIdeal Cert.KernelIdeal.Gen Idealize.ShloMosaic Idealize.ShloMosaic.TcCoe Idealize.SL.Sem Idealize.ShloMosaic.ValueIdx
open Cert.BlockBN Cert.BlockBN.Ker
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at grid point t: the point's own number along the columns (and, for the weight, along
    the rows too), zero along the rows of the rest. -/
theorem idx : ∀ t : Fin cfg0.N, win0_0.index t (0 : Fin 2) = 0 ∧ win0_0.index t (1 : Fin 2) = t.val
    ∧ win0_1.index t (0 : Fin 2) = t.val ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- A grid point as a group number. -/
def grp (t : Fin cfg0.N) : Fin 32 := ⟨t.val, by have h : cfg0.N = 32 := N_0; have := t.isLt; omega⟩

/-- The arrays the region is entered with, as matrices and rows. -/
abbrev X (c : Dev nD) : Mat := fun i k => (V c main_arg0 : S4096x4096.Idx → EReal) (ix2 i k)
abbrev W (c : Dev nD) : Mat := fun k j => (V c main_arg1 : S4096x4096.Idx → EReal) (ix2 k j)
abbrev bRow (c : Dev nD) : Row := fun j => (V c main_v0 : S1x4096.Idx → EReal) (ix2 (0 : Fin 1) j)
abbrev gRow (c : Dev nD) : Row := fun j => (V c main_v1 : S1x4096.Idx → EReal) (ix2 (0 : Fin 1) j)
abbrev eRow (c : Dev nD) : Row := fun j => (V c main_v2 : S1x4096.Idx → EReal) (ix2 (0 : Fin 1) j)

/-- The point's input blocks at their literal types. -/
abbrev xB (c : Dev nD) (t : Fin cfg0.N) : FVec Ideal S4096x128 .f32 := iblk0 V c 0 t
abbrev wB (c : Dev nD) (t : Fin cfg0.N) : FVec Ideal S128x128 .f32 := iblk0 V c 1 t
abbrev bB (c : Dev nD) (t : Fin cfg0.N) : FVec Ideal S1x128 .f32 := iblk0 V c 2 t
abbrev gB (c : Dev nD) (t : Fin cfg0.N) : FVec Ideal S1x128 .f32 := iblk0 V c 3 t
abbrev eB (c : Dev nD) (t : Fin cfg0.N) : FVec Ideal S1x128 .f32 := iblk0 V c 4 t

theorem xread (c : Dev nD) (t : Fin cfg0.N) (p : Fin 4096) (k : Fin 128) : xB V c t (ix2 p k) = X V c p (col (grp t) k) := by
  obtain ⟨e0, e1, -⟩ := idx t
  unfold xB iblk0
  rw [View.read_apply]
  show V c main_arg0 _ = V c main_arg0 _
  refine congrArg (V c main_arg0) (funext fun a => Fin.ext ?_)
  match a with
  | ⟨0, _⟩ => show win0_0.index t (0 : Fin 2) * 4096 + 1 * p.val = p.val; rw [e0]; omega
  | ⟨1, _⟩ => show win0_0.index t (1 : Fin 2) * 128 + 1 * k.val = t.val * 128 + k.val; rw [e1]; omega

theorem wread (c : Dev nD) (t : Fin cfg0.N) (k q : Fin 128) : wB V c t (ix2 k q) = W V c (col (grp t) k) (col (grp t) q) := by
  obtain ⟨-, -, e0, e1, -⟩ := idx t
  unfold wB iblk0
  rw [View.read_apply]
  show V c main_arg1 _ = V c main_arg1 _
  refine congrArg (V c main_arg1) (funext fun a => Fin.ext ?_)
  match a with
  | ⟨0, _⟩ => show win0_1.index t (0 : Fin 2) * 128 + 1 * k.val = t.val * 128 + k.val; rw [e0]; omega
  | ⟨1, _⟩ => show win0_1.index t (1 : Fin 2) * 128 + 1 * q.val = t.val * 128 + q.val; rw [e1]; omega

theorem bread (c : Dev nD) (t : Fin cfg0.N) (q : Fin 128) : bB V c t (ix2 (0 : Fin 1) q) = bRow V c (col (grp t) q) := by
  obtain ⟨-, -, -, -, e0, e1, -⟩ := idx t
  unfold bB iblk0
  rw [View.read_apply]
  show V c main_v0 _ = V c main_v0 _
  refine congrArg (V c main_v0) (funext fun a => Fin.ext ?_)
  match a with
  | ⟨0, _⟩ => show win0_2.index t (0 : Fin 2) * 1 + 1 * 0 = 0; rw [e0]
  | ⟨1, _⟩ => show win0_2.index t (1 : Fin 2) * 128 + 1 * q.val = t.val * 128 + q.val; rw [e1]; omega

theorem gread (c : Dev nD) (t : Fin cfg0.N) (q : Fin 128) : gB V c t (ix2 (0 : Fin 1) q) = gRow V c (col (grp t) q) := by
  obtain ⟨-, -, -, -, -, -, e0, e1, -⟩ := idx t
  unfold gB iblk0
  rw [View.read_apply]
  show V c main_v1 _ = V c main_v1 _
  refine congrArg (V c main_v1) (funext fun a => Fin.ext ?_)
  match a with
  | ⟨0, _⟩ => show win0_3.index t (0 : Fin 2) * 1 + 1 * 0 = 0; rw [e0]
  | ⟨1, _⟩ => show win0_3.index t (1 : Fin 2) * 128 + 1 * q.val = t.val * 128 + q.val; rw [e1]; omega

theorem eread (c : Dev nD) (t : Fin cfg0.N) (q : Fin 128) : eB V c t (ix2 (0 : Fin 1) q) = eRow V c (col (grp t) q) := by
  obtain ⟨-, -, -, -, -, -, -, -, e0, e1, -⟩ := idx t
  unfold eB iblk0
  rw [View.read_apply]
  show V c main_v2 _ = V c main_v2 _
  refine congrArg (V c main_v2) (funext fun a => Fin.ext ?_)
  match a with
  | ⟨0, _⟩ => show win0_4.index t (0 : Fin 2) * 1 + 1 * 0 = 0; rw [e0]
  | ⟨1, _⟩ => show win0_4.index t (1 : Fin 2) * 128 + 1 * q.val = t.val * 128 + q.val; rw [e1]; omega

theorem reads (c : Dev nD) (t : Fin cfg0.N) : Reads (xB V c t) (wB V c t) (bB V c t) (X V c) (W V c) (bRow V c) (grp t) :=
  ⟨xread V c t, wread V c t, bread V c t⟩

/-- The two output arrays the region leaves. -/
def scaleArr (c : Dev nD) : S1x4096.Idx → EReal := fun i => scale (lin (X V c) (W V c) (bRow V c)) (gRow V c) (i 1)
def shiftArr (c : Dev nD) : S1x4096.Idx → EReal := fun i => shift (lin (X V c) (W V c) (bRow V c)) (gRow V c) (eRow V c) (i 1)

/-- What grid point t writes back to the first output is block t of the scale array. -/
theorem flushed_scale (c : Dev nD) (t : Fin cfg0.N) :
    (dat0 V c).flushed 5 t = ((cfg0.win 5).blk t).view.read (Elt Ideal) (scaleArr V c) := by
  obtain ⟨-, -, -, -, -, -, -, -, -, -, e0, e1, -⟩ := idx t
  show (cfg0.win 5).cut (grid0.coords t) ((dat0 V c).after 5 t) = _
  rw [after0_5]
  unfold out0_5
  rw [View.canon_unit_zero hz]
  simp only [View.ld_unit_zero (S := S128x128) hz, View.ld_unit_zero (S := S4096x128) hz, View.ld_unit_zero (S := S1x128) hz]
  funext j
  obtain ⟨u, q, rfl⟩ : ∃ (u : Fin 1) (q : Fin 128), j = ix2 u q := ⟨j 0, j 1, eq_ix2 j⟩
  obtain rfl : u = 0 := Subsingleton.elim _ _
  show k0_pay9 (F := Ideal) k0_pay1 k0_pay2 k0_pay3 k0_pay4 (wB V c t) (xB V c t) (bB V c t) (gB V c t) (ix2 (0 : Fin 1) q)
      = scaleArr V c (((cfg0.win 5).blk t).view.emb (ix2 (0 : Fin 1) q))
  rw [scale_point (gB V c t) (gRow V c) (reads V c t) q (gread V c t q)]
  unfold scaleArr
  refine congrArg (scale _ _) (Fin.ext ?_)
  show t.val * 128 + q.val = win0_5.index t (1 : Fin 2) * 128 + 1 * q.val
  rw [e1]; omega

/-- What grid point t writes back to the second output is block t of the shift array. -/
theorem flushed_shift (c : Dev nD) (t : Fin cfg0.N) :
    (dat0 V c).flushed 6 t = ((cfg0.win 6).blk t).view.read (Elt Ideal) (shiftArr V c) := by
  obtain ⟨-, -, -, -, -, -, -, -, -, -, -, -, e0, e1⟩ := idx t
  show (cfg0.win 6).cut (grid0.coords t) ((dat0 V c).after 6 t) = _
  rw [after0_6]
  unfold out0_6
  rw [View.canon_unit_zero hz]
  simp only [View.ld_unit_zero (S := S128x128) hz, View.ld_unit_zero (S := S4096x128) hz, View.ld_unit_zero (S := S1x128) hz]
  funext j
  obtain ⟨u, q, rfl⟩ : ∃ (u : Fin 1) (q : Fin 128), j = ix2 u q := ⟨j 0, j 1, eq_ix2 j⟩
  obtain rfl : u = 0 := Subsingleton.elim _ _
  show k0_pay10 (F := Ideal) k0_pay1 k0_pay2 k0_pay3 k0_pay4 (wB V c t) (xB V c t) (bB V c t) (gB V c t) (eB V c t) (ix2 (0 : Fin 1) q)
      = shiftArr V c (((cfg0.win 6).blk t).view.emb (ix2 (0 : Fin 1) q))
  rw [shift_point (gB V c t) (eB V c t) (gRow V c) (eRow V c) (reads V c t) q (gread V c t q) (eread V c t q)]
  unfold shiftArr
  refine congrArg (shift _ _ _) (Fin.ext ?_)
  show t.val * 128 + q.val = win0_6.index t (1 : Fin 2) * 128 + 1 * q.val
  rw [e1]; omega

/-- An index of an output is in point t's block iff its column lies in the point's 128 columns. -/
theorem mem_blk5 (t : Fin cfg0.N) (i : S1x4096.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v3_0).slice (win0_5.rect t)).set ↔ _
  rw [View.set_slice_whole, Rect.mem_set_unit]
  exact Iff.rfl
theorem mem_blk6 (t : Fin cfg0.N) (i : S1x4096.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v3_1).slice (win0_6.rect t)).set ↔ _
  rw [View.set_slice_whole, Rect.mem_set_unit]
  exact Iff.rfl

/-- The point that covers column j is j / 128. -/
def ptOf (i : S1x4096.Idx) : Fin cfg0.N := ⟨(i 1).val / 128, by have h : cfg0.N = 32 := N_0; have h1 : (i 1).val < 4096 := (i 1).isLt; omega⟩

theorem cover5 (i : S1x4096.Idx) : ∃ t : Fin cfg0.N, (cfg0.win 5).flush t = true ∧ i ∈ ((cfg0.win 5).blk t).view.set := by
  refine ⟨ptOf i, flush0_5 _, ?_⟩
  obtain ⟨-, -, -, -, -, -, -, -, -, -, e0, e1, -⟩ := idx (ptOf i)
  have h0 : (i 0).val < 1 := (i 0).isLt
  have h1 : (i 1).val < 4096 := (i 1).isLt
  have hv : (ptOf i).val = (i 1).val / 128 := rfl
  rw [mem_blk5]
  intro a
  match a with
  | ⟨0, _⟩ => show win0_5.index (ptOf i) (0 : Fin 2) * 1 ≤ (i 0).val ∧ (i 0).val < win0_5.index (ptOf i) (0 : Fin 2) * 1 + 1; rw [e0]; omega
  | ⟨1, _⟩ => show win0_5.index (ptOf i) (1 : Fin 2) * 128 ≤ (i 1).val ∧ (i 1).val < win0_5.index (ptOf i) (1 : Fin 2) * 128 + 128; rw [e1, hv]; omega

theorem cover6 (i : S1x4096.Idx) : ∃ t : Fin cfg0.N, (cfg0.win 6).flush t = true ∧ i ∈ ((cfg0.win 6).blk t).view.set := by
  refine ⟨ptOf i, flush0_6 _, ?_⟩
  obtain ⟨-, -, -, -, -, -, -, -, -, -, -, -, e0, e1⟩ := idx (ptOf i)
  have h0 : (i 0).val < 1 := (i 0).isLt
  have h1 : (i 1).val < 4096 := (i 1).isLt
  have hv : (ptOf i).val = (i 1).val / 128 := rfl
  rw [mem_blk6]
  intro a
  match a with
  | ⟨0, _⟩ => show win0_6.index (ptOf i) (0 : Fin 2) * 1 ≤ (i 0).val ∧ (i 0).val < win0_6.index (ptOf i) (0 : Fin 2) * 1 + 1; rw [e0]; omega
  | ⟨1, _⟩ => show win0_6.index (ptOf i) (1 : Fin 2) * 128 ≤ (i 1).val ∧ (i 1).val < win0_6.index (ptOf i) (1 : Fin 2) * 128 + 128; rw [e1, hv]; omega

/-- After the region the two outputs hold the scale and the shift of every column. -/
theorem final_scale (c : Dev nD) : (dat0 V c).arrAt 5 cfg0.N = scaleArr V c :=
  (dat0 V c).arrAt_eq_of_cover 5 (scaleArr V c) (fun t _ => flushed_scale V c t) (cover5)
theorem final_shift (c : Dev nD) : (dat0 V c).arrAt 6 cfg0.N = shiftArr V c :=
  (dat0 V c).arrAt_eq_of_cover 6 (shiftArr V c) (fun t _ => flushed_shift V c t) (cover6)

end Cert.BlockBN.Stats

end
-- ==== Proof.KernelApply.lean ====
/-
  The second region (the normalising kernel over 32 grid points) as a whole array. Grid point t recomputes the masked
  dense layer on columns 128 t .. 128 t + 127, multiplies by the scale entries and adds the shift entries it finds in the
  two [1, 4096] arrays the first region left, rectifies, and writes columns 128 t .. 128 t + 127 of the result; the 32
  column blocks tile the result. Whatever rows g and be the scale and shift arrays were computed from, the result is the
  specification's kernel arrangement of them.
-/
import proofs.«106294_j39298950758467_1_alg».proof.Proof.KernelCols
import proofs.«106294_j39298950758467_1_alg».proof.Proof.Gen.KernelIdeal.Frame
import Idealize.ShloMosaic.Lib.Pipeline.Value

set_option maxRecDepth 16384

noncomputable section

namespace Cert.BlockBN.Apply

open Cert.KernelIdeal Cert.KernelIdeal.Gen Idealize.ShloMosaic Idealize.ShloMosaic.TcCoe Idealize.SL.Sem Idealize.ShloMosaic.ValueIdx
open Cert.BlockBN Cert.BlockBN.Ker
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's block index at grid point t. -/
theorem idx : ∀ t : Fin cfg1.N, win1_0.index t (0 : Fin 2) = 0 ∧ win1_0.index t (1 : Fin 2) = t.val
    ∧ win1_1.index t (0 : Fin 2) = t.val ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val
    ∧ win1_5.index t (0 : Fin 2) = 0 ∧ win1_5.index t (1 : Fin 2) = t.val :=
  (by decide +kernel : ∀ t : Fin grid1.N, _)

/-- A grid point as a group number. -/
def grp (t : Fin cfg1.N) : Fin 32 := ⟨t.val, by have h : cfg1.N = 32 := N_1; have := t.isLt; omega⟩

/-- The arrays the region is entered with, as matrices and rows. -/
abbrev X (c : Dev nD) : Mat := fun i k => (V c main_arg0 : S4096x4096.Idx → EReal) (ix2 i k)
abbrev W (c : Dev nD) : Mat := fun k j => (V c main_arg1 : S4096x4096.Idx → EReal) (ix2 k j)
abbrev bRow (c : Dev nD) : Row := fun j => (V c main_v0 : S1x4096.Idx → EReal) (ix2 (0 : Fin 1) j)
abbrev sRow (c : Dev nD) : Row := fun j => (V c main_v3_0 : S1x4096.Idx → EReal) (ix2 (0 : Fin 1) j)
abbrev hRow (c : Dev nD) : Row := fun j => (V c main_v3_1 : S1x4096.Idx → EReal) (ix2 (0 : Fin 1) j)

/-- The point's input blocks at their literal types. -/
abbrev xB (c : Dev nD) (t : Fin cfg1.N) : FVec Ideal S4096x128 .f32 := iblk1 V c 0 t
abbrev wB (c : Dev nD) (t : Fin cfg1.N) : FVec Ideal S128x128 .f32 := iblk1 V c 1 t
abbrev bB (c : Dev nD) (t : Fin cfg1.N) : FVec Ideal S1x128 .f32 := iblk1 V c 2 t
abbrev sB (c : Dev nD) (t : Fin cfg1.N) : FVec Ideal S1x128 .f32 := iblk1 V c 3 t
abbrev hB (c : Dev nD) (t : Fin cfg1.N) : FVec Ideal S1x128 .f32 := iblk1 V c 4 t

theorem xread (c : Dev nD) (t : Fin cfg1.N) (p : Fin 4096) (k : Fin 128) : xB V c t (ix2 p k) = X V c p (col (grp t) k) := by
  obtain ⟨e0, e1, -⟩ := idx t
  unfold xB iblk1
  rw [View.read_apply]
  show V c main_arg0 _ = V c main_arg0 _
  refine congrArg (V c main_arg0) (funext fun a => Fin.ext ?_)
  match a with
  | ⟨0, _⟩ => show win1_0.index t (0 : Fin 2) * 4096 + 1 * p.val = p.val; rw [e0]; omega
  | ⟨1, _⟩ => show win1_0.index t (1 : Fin 2) * 128 + 1 * k.val = t.val * 128 + k.val; rw [e1]; omega

theorem wread (c : Dev nD) (t : Fin cfg1.N) (k q : Fin 128) : wB V c t (ix2 k q) = W V c (col (grp t) k) (col (grp t) q) := by
  obtain ⟨-, -, e0, e1, -⟩ := idx t
  unfold wB iblk1
  rw [View.read_apply]
  show V c main_arg1 _ = V c main_arg1 _
  refine congrArg (V c main_arg1) (funext fun a => Fin.ext ?_)
  match a with
  | ⟨0, _⟩ => show win1_1.index t (0 : Fin 2) * 128 + 1 * k.val = t.val * 128 + k.val; rw [e0]; omega
  | ⟨1, _⟩ => show win1_1.index t (1 : Fin 2) * 128 + 1 * q.val = t.val * 128 + q.val; rw [e1]; omega

theorem bread (c : Dev nD) (t : Fin cfg1.N) (q : Fin 128) : bB V c t (ix2 (0 : Fin 1) q) = bRow V c (col (grp t) q) := by
  obtain ⟨-, -, -, -, e0, e1, -⟩ := idx t
  unfold bB iblk1
  rw [View.read_apply]
  show V c main_v0 _ = V c main_v0 _
  refine congrArg (V c main_v0) (funext fun a => Fin.ext ?_)
  match a with
  | ⟨0, _⟩ => show win1_2.index t (0 : Fin 2) * 1 + 1 * 0 = 0; rw [e0]
  | ⟨1, _⟩ => show win1_2.index t (1 : Fin 2) * 128 + 1 * q.val = t.val * 128 + q.val; rw [e1]; omega

theorem sread (c : Dev nD) (t : Fin cfg1.N) (q : Fin 128) : sB V c t (ix2 (0 : Fin 1) q) = sRow V c (col (grp t) q) := by
  obtain ⟨-, -, -, -, -, -, e0, e1, -⟩ := idx t
  unfold sB iblk1
  rw [View.read_apply]
  show V c main_v3_0 _ = V c main_v3_0 _
  refine congrArg (V c main_v3_0) (funext fun a => Fin.ext ?_)
  match a with
  | ⟨0, _⟩ => show win1_3.index t (0 : Fin 2) * 1 + 1 * 0 = 0; rw [e0]
  | ⟨1, _⟩ => show win1_3.index t (1 : Fin 2) * 128 + 1 * q.val = t.val * 128 + q.val; rw [e1]; omega

theorem hread (c : Dev nD) (t : Fin cfg1.N) (q : Fin 128) : hB V c t (ix2 (0 : Fin 1) q) = hRow V c (col (grp t) q) := by
  obtain ⟨-, -, -, -, -, -, -, -, e0, e1, -⟩ := idx t
  unfold hB iblk1
  rw [View.read_apply]
  show V c main_v3_1 _ = V c main_v3_1 _
  refine congrArg (V c main_v3_1) (funext fun a => Fin.ext ?_)
  match a with
  | ⟨0, _⟩ => show win1_4.index t (0 : Fin 2) * 1 + 1 * 0 = 0; rw [e0]
  | ⟨1, _⟩ => show win1_4.index t (1 : Fin 2) * 128 + 1 * q.val = t.val * 128 + q.val; rw [e1]; omega

theorem reads (c : Dev nD) (t : Fin cfg1.N) : Reads (xB V c t) (wB V c t) (bB V c t) (X V c) (W V c) (bRow V c) (grp t) :=
  ⟨xread V c t, wread V c t, bread V c t⟩

variable (g be : Row)

/-- The result array: the kernel's arrangement at every (row, column). -/
def outArr (c : Dev nD) : S4096x4096.Idx → EReal := fun i => kerOut (lin (X V c) (W V c) (bRow V c)) g be (i 0) (i 1)

/-- What grid point t writes back is column block t of the result, when the scale and shift arrays hold the scale and
    shift of g and be. -/
theorem flushed_out (c : Dev nD) (hs : ∀ j, sRow V c j = scale (lin (X V c) (W V c) (bRow V c)) g j)
    (hh : ∀ j, hRow V c j = shift (lin (X V c) (W V c) (bRow V c)) g be j) (t : Fin cfg1.N) :
    (dat1 V c).flushed 5 t = ((cfg1.win 5).blk t).view.read (Elt Ideal) (outArr V g be c) := by
  obtain ⟨-, -, -, -, -, -, -, -, -, -, e0, e1⟩ := idx t
  show (cfg1.win 5).cut (grid1.coords t) ((dat1 V c).after 5 t) = _
  rw [after1_5]
  unfold out1_5
  rw [View.canon_unit_zero hz]
  simp only [View.ld_unit_zero (S := S128x128) hz, View.ld_unit_zero (S := S4096x128) hz, View.ld_unit_zero (S := S1x128) hz]
  funext j
  obtain ⟨p, q, rfl⟩ : ∃ (p : Fin 4096) (q : Fin 128), j = ix2 p q := ⟨j 0, j 1, eq_ix2 j⟩
  show k1_pay1 (F := Ideal) k1_pay2 k1_pay3 k1_pay4 k1_pay5 (wB V c t) (xB V c t) (bB V c t) (sB V c t) (hB V c t) (ix2 p q)
      = outArr V g be c (((cfg1.win 5).blk t).view.emb (ix2 p q))
  rw [out_point (sB V c t) (hB V c t) g be (reads V c t) p q ((sread V c t q).trans (hs _)) ((hread V c t q).trans (hh _))]
  unfold outArr
  have ep : p = (((cfg1.win 5).blk t).view.emb (ix2 p q)) 0 := Fin.ext (by
    show p.val = win1_5.index t (0 : Fin 2) * 4096 + 1 * p.val
    rw [e0]; omega)
  have eq : col (grp t) q = (((cfg1.win 5).blk t).view.emb (ix2 p q)) 1 := Fin.ext (by
    show t.val * 128 + q.val = win1_5.index t (1 : Fin 2) * 128 + 1 * q.val
    rw [e1]; omega)
  rw [← ep, ← eq]

/-- An index of the result is in point t's block iff its column lies in the point's 128 columns. -/
theorem mem_blk5 (t : Fin cfg1.N) (i : S4096x4096.Idx) :
    i ∈ ((cfg1.win 5).blk t).view.set ↔ ∀ a : Fin 2, win1_5.index t a * S4096x128.size a ≤ (i a).val ∧ (i a).val < win1_5.index t a * S4096x128.size a + S4096x128.size a := by
  show i ∈ ((View.whole main_v4).slice (win1_5.rect t)).set ↔ _
  rw [View.set_slice_whole, Rect.mem_set_unit]
  exact Iff.rfl

/-- The point that covers column j is j / 128. -/
def ptOf (i : S4096x4096.Idx) : Fin cfg1.N := ⟨(i 1).val / 128, by have h : cfg1.N = 32 := N_1; have h1 : (i 1).val < 4096 := (i 1).isLt; omega⟩

theorem cover5 (i : S4096x4096.Idx) : ∃ t : Fin cfg1.N, (cfg1.win 5).flush t = true ∧ i ∈ ((cfg1.win 5).blk t).view.set := by
  refine ⟨ptOf i, flush1_5 _, ?_⟩
  obtain ⟨-, -, -, -, -, -, -, -, -, -, e0, e1⟩ := idx (ptOf i)
  have h0 : (i 0).val < 4096 := (i 0).isLt
  have h1 : (i 1).val < 4096 := (i 1).isLt
  have hv : (ptOf i).val = (i 1).val / 128 := rfl
  rw [mem_blk5]
  intro a
  match a with
  | ⟨0, _⟩ => show win1_5.index (ptOf i) (0 : Fin 2) * 4096 ≤ (i 0).val ∧ (i 0).val < win1_5.index (ptOf i) (0 : Fin 2) * 4096 + 4096; rw [e0]; omega
  | ⟨1, _⟩ => show win1_5.index (ptOf i) (1 : Fin 2) * 128 ≤ (i 1).val ∧ (i 1).val < win1_5.index (ptOf i) (1 : Fin 2) * 128 + 128; rw [e1, hv]; omega

/-- After the region the result array holds the kernel's arrangement at every index. -/
theorem final_out (c : Dev nD) (hs : ∀ j, sRow V c j = scale (lin (X V c) (W V c) (bRow V c)) g j)
    (hh : ∀ j, hRow V c j = shift (lin (X V c) (W V c) (bRow V c)) g be j) :
    (dat1 V c).arrAt 5 cfg1.N = outArr V g be c :=
  (dat1 V c).arrAt_eq_of_cover 5 (outArr V g be c) (fun t _ => flushed_out V g be c hs hh t) (cover5)

end Cert.BlockBN.Apply

end
-- ==== Proof.KernelChain.lean ====
/-
  The two regions joined. The first region is entered with the arguments as launched and the three vectors reshaped to
  [1, 4096]; it leaves the scale and shift arrays. The second region is entered with those and the same inputs; it leaves
  the result. Read back through the run's boundaries, the result array is the specification's kernel arrangement of the
  five argument arrays.
-/
import proofs.«106294_j39298950758467_1_alg».proof.Proof.KernelStats
import proofs.«106294_j39298950758467_1_alg».proof.Proof.KernelApply
import proofs.«106294_j39298950758467_1_alg».proof.Proof.KernelRun
import Idealize.ShloMosaic.Lib.StableHlo.Run
import Idealize.ShloMosaic.Lib.ValueLayout

set_option maxRecDepth 16384

noncomputable section

namespace Cert.BlockBN.Chain

open Cert.KernelIdeal Cert.KernelIdeal.Gen Idealize.ShloMosaic Idealize.ShloMosaic.TcCoe Idealize.SL.Sem Idealize.ShloMosaic.ValueIdx
open Cert.BlockBN Cert.BlockBN.Ker
open Idealize.ShloMosaic.Pipeline (Dat)

variable (m : (ℓ : Loc nD τ sig) → Buf (Elt Ideal) ℓ) (ρ : Dev nD → PrngReg)

/-- The five argument arrays as launched. -/
abbrev A0 (c : Dev nD) : Sq.Idx → EReal := m ((c.tc : Thread nD τ).loc main_arg0)
abbrev A1 (c : Dev nD) : Sq.Idx → EReal := m ((c.tc : Thread nD τ).loc main_arg1)
abbrev A2 (c : Dev nD) : Vc.Idx → EReal := m ((c.tc : Thread nD τ).loc main_arg2)
abbrev A3 (c : Dev nD) : Vc.Idx → EReal := m ((c.tc : Thread nD τ).loc main_arg3)
abbrev A4 (c : Dev nD) : Vc.Idx → EReal := m ((c.tc : Thread nD τ).loc main_arg4)

/-! ## The first region's entry contents -/

theorem V1_arg0 (c : Dev nD) : V1 m ρ c main_arg0 = A0 m c := by
  show StableHlo.after hostOps0 (W0 m ρ c) (Proc.devRef .tc main_arg0) = _
  after_results
theorem V1_arg1 (c : Dev nD) : V1 m ρ c main_arg1 = A1 m c := by
  show StableHlo.after hostOps0 (W0 m ρ c) (Proc.devRef .tc main_arg1) = _
  after_results
theorem V1_v0 (c : Dev nD) : (V1 m ρ c main_v0 : S1x4096.Idx → EReal) = shapeCast S1x4096 (A2 m c) shapeCasts_S4096_S1x4096 := by
  show StableHlo.after hostOps0 (W0 m ρ c) (Proc.devRef .tc main_v0) = _
  after_results; rfl
theorem V1_v1 (c : Dev nD) : (V1 m ρ c main_v1 : S1x4096.Idx → EReal) = shapeCast S1x4096 (A3 m c) shapeCasts_S4096_S1x4096 := by
  show StableHlo.after hostOps0 (W0 m ρ c) (Proc.devRef .tc main_v1) = _
  after_results; rfl
theorem V1_v2 (c : Dev nD) : (V1 m ρ c main_v2 : S1x4096.Idx → EReal) = shapeCast S1x4096 (A4 m c) shapeCasts_S4096_S1x4096 := by
  show StableHlo.after hostOps0 (W0 m ρ c) (Proc.devRef .tc main_v2) = _
  after_results; rfl

/-! ## The second region's entry contents: the first region's arrays after its write-backs -/

theorem V2_arg0 (c : Dev nD) : V2 m ρ c main_arg0 = A0 m c :=
  ((W2_arr m ρ c 0).trans (((dat0 (V1 m ρ) c).arrAt_in 0 rfl _).trans (A_eq0 (V1 m ρ) c 0))).trans (V1_arg0 m ρ c)
theorem V2_arg1 (c : Dev nD) : V2 m ρ c main_arg1 = A1 m c :=
  ((W2_arr m ρ c 1).trans (((dat0 (V1 m ρ) c).arrAt_in 1 rfl _).trans (A_eq0 (V1 m ρ) c 1))).trans (V1_arg1 m ρ c)
theorem V2_v0 (c : Dev nD) : (V2 m ρ c main_v0 : S1x4096.Idx → EReal) = shapeCast S1x4096 (A2 m c) shapeCasts_S4096_S1x4096 :=
  ((W2_arr m ρ c 2).trans (((dat0 (V1 m ρ) c).arrAt_in 2 rfl _).trans (A_eq0 (V1 m ρ) c 2))).trans (V1_v0 m ρ c)
theorem V2_scale (c : Dev nD) : (V2 m ρ c main_v3_0 : S1x4096.Idx → EReal) = Stats.scaleArr (V1 m ρ) c :=
  (W2_arr m ρ c 5).trans (Stats.final_scale (V1 m ρ) c)
theorem V2_shift (c : Dev nD) : (V2 m ρ c main_v3_1 : S1x4096.Idx → EReal) = Stats.shiftArr (V1 m ρ) c :=
  (W2_arr m ρ c 6).trans (Stats.final_shift (V1 m ρ) c)

/-! ## Both regions' matrices and rows are the arguments' -/

theorem row_of_reshape (A : Vc.Idx → EReal) (j : Fin 4096) :
    shapeCast S1x4096 A shapeCasts_S4096_S1x4096 (ix2 (0 : Fin 1) j) = toRow A j :=
  shapeCast_a_1a_apply A shapeCasts_S4096_S1x4096 0 j

theorem stats_X (c : Dev nD) : Stats.X (V1 m ρ) c = toMat (A0 m c) := by
  funext i k
  show (V1 m ρ c main_arg0 : S4096x4096.Idx → EReal) (ix2 i k) = _
  rw [V1_arg0]; rfl
theorem stats_W (c : Dev nD) : Stats.W (V1 m ρ) c = toMat (A1 m c) := by
  funext k j
  show (V1 m ρ c main_arg1 : S4096x4096.Idx → EReal) (ix2 k j) = _
  rw [V1_arg1]; rfl
theorem stats_b (c : Dev nD) : Stats.bRow (V1 m ρ) c = toRow (A2 m c) := by
  funext j
  show (V1 m ρ c main_v0 : S1x4096.Idx → EReal) (ix2 (0 : Fin 1) j) = _
  rw [V1_v0, row_of_reshape]
theorem stats_g (c : Dev nD) : Stats.gRow (V1 m ρ) c = toRow (A3 m c) := by
  funext j
  show (V1 m ρ c main_v1 : S1x4096.Idx → EReal) (ix2 (0 : Fin 1) j) = _
  rw [V1_v1, row_of_reshape]
theorem stats_e (c : Dev nD) : Stats.eRow (V1 m ρ) c = toRow (A4 m c) := by
  funext j
  show (V1 m ρ c main_v2 : S1x4096.Idx → EReal) (ix2 (0 : Fin 1) j) = _
  rw [V1_v2, row_of_reshape]

theorem apply_X (c : Dev nD) : Apply.X (V2 m ρ) c = toMat (A0 m c) := by
  funext i k
  show (V2 m ρ c main_arg0 : S4096x4096.Idx → EReal) (ix2 i k) = _
  rw [V2_arg0]; rfl
theorem apply_W (c : Dev nD) : Apply.W (V2 m ρ) c = toMat (A1 m c) := by
  funext k j
  show (V2 m ρ c main_arg1 : S4096x4096.Idx → EReal) (ix2 k j) = _
  rw [V2_arg1]; rfl
theorem apply_b (c : Dev nD) : Apply.bRow (V2 m ρ) c = toRow (A2 m c) := by
  funext j
  show (V2 m ρ c main_v0 : S1x4096.Idx → EReal) (ix2 (0 : Fin 1) j) = _
  rw [V2_v0, row_of_reshape]

/-- The scale and shift rows the second region finds are those of the arguments' gamma and beta. -/
theorem apply_s (c : Dev nD) (j : Fin 4096) :
    Apply.sRow (V2 m ρ) c j = scale (lin (Apply.X (V2 m ρ) c) (Apply.W (V2 m ρ) c) (Apply.bRow (V2 m ρ) c)) (toRow (A3 m c)) j := by
  show (V2 m ρ c main_v3_0 : S1x4096.Idx → EReal) (ix2 (0 : Fin 1) j) = _
  rw [V2_scale]
  unfold Stats.scaleArr
  rw [stats_X, stats_W, stats_b, stats_g, apply_X, apply_W, apply_b]
theorem apply_h (c : Dev nD) (j : Fin 4096) :
    Apply.hRow (V2 m ρ) c j = shift (lin (Apply.X (V2 m ρ) c) (Apply.W (V2 m ρ) c) (Apply.bRow (V2 m ρ) c)) (toRow (A3 m c)) (toRow (A4 m c)) j := by
  show (V2 m ρ c main_v3_1 : S1x4096.Idx → EReal) (ix2 (0 : Fin 1) j) = _
  rw [V2_shift]
  unfold Stats.shiftArr
  rw [stats_X, stats_W, stats_b, stats_g, stats_e, apply_X, apply_W, apply_b]

/-- The result array after the run is the kernel arrangement of the five arguments. -/
theorem result (c : Dev nD) :
    W3 m ρ c (Proc.devRef .tc main_v4) = kerArr (A0 m c) (A1 m c) (A2 m c) (A3 m c) (A4 m c) := by
  refine (W3_arr m ρ c 5).trans ?_
  rw [Apply.final_out (V2 m ρ) (toRow (A3 m c)) (toRow (A4 m c)) c (apply_s m ρ c) (apply_h m ρ c)]
  unfold Apply.outArr kerArr
  rw [apply_X, apply_W, apply_b]

/-- The run, read: the result array at the kernel arrangement, the arguments unchanged. -/
theorem run : θ_run defs (onTc (τ := τ) (main (F := Ideal))) ⟨m, fun _ => 0, ρ⟩ (fun r => ∀ c : Dev nD,
      r.2.mem ((c.tc : Thread nD τ).loc main_v4) = kerArr (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩)
    (Cert.KernelIdeal.Result.run_result (F := Ideal) m ρ)

end Cert.BlockBN.Chain

end
-- ==== Proof.lean ====
/-
  A dense layer masked to the 64 diagonal 64 x 64 blocks of its 4096 x 4096 weight, followed by batch normalisation over
  the 4096 rows (batch mean, biased variance, offset 0.001) and a rectifier.

  The kernel runs two grids of 32 points over groups of 128 columns. The first computes, per column, the mean and the
  inverse deviation of the masked product plus bias and folds them with gamma and beta into a scale g * inv and a shift
  be - (mean * g) * inv. The second recomputes the masked product and applies out * scale + shift, then max with 0. Only
  the 128 rows of the weight in the column's own group can meet a non-zero mask entry, so each point contracts over 128
  rows; the reference contracts over all 4096 rows of weight * kron(eye 64, ones 64 x 64), and the rows outside the group
  contribute x * (w * 0) = 0. The reference normalises as ((out - mean) * inv) * g + be.

  On the extended reals the two arrangements agree once every entry is a real number: the masked product, the mean, the
  variance (non-negative, so variance + 0.001 is positive and its inverse square root is a real) and hence
  out * (g * inv) + (be - (mean * g) * inv) = ((out - mean) * inv) * g + be by distributivity in the reals. That is where
  the precondition (every input finite) is used. A change of float format is the identity on the extended reals, so the
  kernel's bf16 operands of the matrix product are the f32 values themselves.
-/
import proofs.«106294_j39298950758467_1_alg».proof.Defs
import proofs.«106294_j39298950758467_1_alg».proof.Proof.Gen.Kernel
import proofs.«106294_j39298950758467_1_alg».proof.Proof.Gen.Kernel.Skeleton
import proofs.«106294_j39298950758467_1_alg».proof.Proof.Gen.Kernel.Launch
import proofs.«106294_j39298950758467_1_alg».proof.Proof.Gen.Kernel.Points
import proofs.«106294_j39298950758467_1_alg».proof.Proof.Gen.Kernel.Frame
import proofs.«106294_j39298950758467_1_alg».proof.Proof.Gen.KernelIdeal
import proofs.«106294_j39298950758467_1_alg».proof.Proof.Gen.KernelIdeal.Skeleton
import proofs.«106294_j39298950758467_1_alg».proof.Proof.Gen.KernelIdeal.Launch
import proofs.«106294_j39298950758467_1_alg».proof.Proof.Gen.KernelIdeal.Points
import proofs.«106294_j39298950758467_1_alg».proof.Proof.Gen.KernelIdeal.Frame
import proofs.«106294_j39298950758467_1_alg».proof.Proof.Gen.ReferenceIdeal
import proofs.«106294_j39298950758467_1_alg».proof.Proof.Gen.Pre_finite_inputs
import proofs.«106294_j39298950758467_1_alg».proof.Proof.Gen.ReferenceIdeal.Run
import proofs.«106294_j39298950758467_1_alg».proof.Proof.Gen.ReferenceIdeal.Read
import proofs.«106294_j39298950758467_1_alg».proof.Proof.RefValue
import proofs.«106294_j39298950758467_1_alg».proof.Proof.Algebra
import proofs.«106294_j39298950758467_1_alg».proof.Proof.FiniteInputs
import proofs.«106294_j39298950758467_1_alg».proof.Proof.KernelChain
import Idealize.ShloMosaic.Adequacy
import Idealize.ShloMosaic.Init

noncomputable section

namespace Cert.Proof

open Idealize.ShloMosaic Idealize.SL.Sem Cert.BlockBN

/-- Both kernel programs run, fault-free, with their arguments unchanged: the two-region launch with each region's body run
    on its staged blocks. -/
theorem frame_k : Cert.frame_Kernel := fun m ρ _ => Cert.Kernel.Gen.frame m ρ
theorem frame_ki : Cert.frame_KernelIdeal := fun m ρ _ => Cert.KernelIdeal.Gen.frame m ρ
/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's own text read on the extended reals: nothing was rewritten. -/
theorem preserves : Cert.preserves_Kernel_KernelIdeal := trivial

/-- The kernel's result array ends at the scale-and-shift arrangement of the five arguments, the reference's at the
    centre-then-scale arrangement of arguments that agree; the inputs being finite, the two are one array. -/
theorem algebraic : Cert.algebraic_KernelIdeal_ReferenceIdeal := by
  intro m ρ m' ρ' hpre hagree
  refine ⟨fun c => kerArr (Chain.A0 m c) (Chain.A1 m c) (Chain.A2 m c) (Chain.A3 m c) (Chain.A4 m c), Chain.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := finite_of_pre m hpre c
  rw [Cert.ReferenceIdeal.Read.val_main_v38_eq, (hagree c).1, (hagree c).2.1, (hagree c).2.2.1, (hagree c).2.2.2.1, (hagree c).2.2.2.2]
  exact (Ref.ref_value _ _ _ _ _).trans (kerArr_eq_refArr _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
